-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64x16 : Shape := ⟨3, ![32768, 64, 16]⟩
abbrev S10x64 : Shape := ⟨2, ![10, 64]⟩
abbrev S_ : Shape := ⟨0, ![]⟩

class Facts : Prop where
  bcast_S_S32768x64x16 : S_.BroadcastsInDim S32768x64x16 (![] : Fin 0 → Fin S32768x64x16.rank)
  reducesTo_S32768x64x16_S_d0_1_2 : S32768x64x16.ReducesTo [0, 1, 2] S_
  h_S_ : 0 < S_.numel
  bcast_S_S10x64 : S_.BroadcastsInDim S10x64 (![] : Fin 0 → Fin S10x64.rank)
  reducesTo_S10x64_S_d0_1 : S10x64.ReducesTo [0, 1] S_

variable [Facts]

def fn {F : FTy → Type} [FloatOps F] (main_arg0 : FVec F S32768x64x16 .f32) (main_arg1 : FVec F S10x64 .f32) : IVec S_ 1 :=
  let main_v0 : FVec F S32768x64x16 .f32 := Host.absf main_arg0
  let main_cst : FVec F S_ .f32 := constant S_ .f32 0x7F800000#32
  let main_v1 : FVec F S32768x64x16 .f32 := broadcastInDim S32768x64x16 ![] bcast_S_S32768x64x16 main_cst
  let main_v2 : IVec S32768x64x16 1 := cmpf .olt main_v0 main_v1
  let main_c : IVec S_ 1 := constantI S_ 1 1#1
  let main_v3 : IVec S_ 1 := (fun x v => Host.reduce IntOp.andi x v reducesTo_S32768x64x16_S_d0_1_2 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  main_v8
-- ==== Kernel.lean ====
abbrev S32768x64x16 : Shape := ⟨3, ![32768, 64, 16]⟩
abbrev S10x64 : Shape := ⟨2, ![10, 64]⟩
abbrev S32768x1024 : Shape := ⟨2, ![32768, 1024]⟩
abbrev S64x10 : Shape := ⟨2, ![64, 10]⟩
abbrev S64x16x10 : Shape := ⟨3, ![64, 16, 10]⟩
abbrev S1024x10 : Shape := ⟨2, ![1024, 10]⟩
abbrev S_ : Shape := ⟨0, ![]⟩
abbrev S1024x128 : Shape := ⟨2, ![1024, 128]⟩
abbrev S32768x128 : Shape := ⟨2, ![32768, 128]⟩
abbrev S1024x1024 : Shape := ⟨2, ![1024, 1024]⟩
abbrev S32768x10 : Shape := ⟨2, ![32768, 10]⟩

abbrev nBuf : Space → Nat
  | .hbm => 13
  | .vmem => 5
  | .smem => 0
  | _ => 0

abbrev bufTy : (tb : Table) → Fin (tcTables nBuf tb) → BufTy
  | .hbm, ⟨0, _⟩ => ⟨S32768x64x16, .f32⟩
  | .hbm, ⟨1, _⟩ => ⟨S10x64, .f32⟩
  | .hbm, ⟨2, _⟩ => ⟨S32768x1024, .f32⟩
  | .hbm, ⟨3, _⟩ => ⟨S10x64, .f32⟩
  | .hbm, ⟨4, _⟩ => ⟨S64x10, .f32⟩
  | .hbm, ⟨5, _⟩ => ⟨S64x16x10, .f32⟩
  | .hbm, ⟨6, _⟩ => ⟨S1024x10, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S32768x128, .f32⟩
  | .hbm, ⟨12, _⟩ => ⟨S32768x10, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S32768x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768x64x16_S32768x1024 : S32768x64x16.ShapeCasts S32768x1024
  transposes_S10x64_S64x10_1_0 : S10x64.Transposes [1, 0] S64x10
  bcast_S64x10_S64x16x10_0_2 : S64x10.BroadcastsInDim S64x16x10 (![0, 2] : Fin 2 → Fin S64x16x10.rank)
  shapeCasts_S64x16x10_S1024x10 : S64x16x10.ShapeCasts S1024x10
  pads_S1024x10_S1024x128_000_01180 : S1024x10.Pads (![0, 0] : Fin 2 → Nat) ![0, 118] ![0, 0] S1024x128
  h_S_ : 0 < S_.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S32768x128_S32768x10_0_0 : S32768x128.Slices ![0, 0] S32768x10
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S32768x128.size a
  hwx0_2 : ∀ i : grid0.Coords, EltTy.bits .f32 = 32 ∨ (Rect.block (s := S32768x128) S1024x128.size (cc0_transform_2 i) (hinb0_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x64x16 : Shape := ⟨3, ![32768, 64, 16]⟩
abbrev S10x64 : Shape := ⟨2, ![10, 64]⟩
abbrev S_ : Shape := ⟨0, ![]⟩
abbrev S32768x64 : Shape := ⟨2, ![32768, 64]⟩
abbrev S32768x10 : Shape := ⟨2, ![32768, 10]⟩

abbrev nBuf : Space → Nat
  | .hbm => 7
  | .vmem => 0
  | .smem => 0
  | _ => 0

abbrev bufTy : (tb : Table) → Fin (tcTables nBuf tb) → BufTy
  | .hbm, ⟨0, _⟩ => ⟨S32768x64x16, .f32⟩
  | .hbm, ⟨1, _⟩ => ⟨S10x64, .f32⟩
  | .hbm, ⟨2, _⟩ => ⟨S32768x64x16, .f32⟩
  | .hbm, ⟨3, _⟩ => ⟨S_, .f32⟩
  | .hbm, ⟨4, _⟩ => ⟨S32768x64, .f32⟩
  | .hbm, ⟨5, _⟩ => ⟨S10x64, .f32⟩
  | .hbm, ⟨6, _⟩ => ⟨S32768x10, .f32⟩
  | _, _ => ⟨S32768x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S32768x64x16_S32768x64_d2 : S32768x64x16.ReducesTo [2] S32768x64
  h_S_ : 0 < S_.numel
  dot_S32768x64_S10x64_S32768x10_1_1_0_0_n_n_wf : DotDims.WF S32768x64 S10x64 S32768x10 [1] [1] [0] [0] [] []

variable [Facts₀]

def dot_S32768x64_S10x64_S32768x10_1_1_0_0_n_n : DotDims S32768x64 S10x64 S32768x10 where
  lhsContracting := [1]
  rhsContracting := [1]
  lhsNonContracting := [0]
  rhsNonContracting := [0]
  lhsBatch := []
  rhsBatch := []
  wf := dot_S32768x64_S10x64_S32768x10_1_1_0_0_n_n_wf

class Facts : Prop extends Facts₀ where

variable [Facts]
-- ==== Proof.SumLaw.lean ====
/-
  The one law that joins the two programs, on the extended reals.

  For non-negative a[f,e] (squares) and any b[f]:
      ∑_{j < 1024} a[j / 16, j % 16] · b[j / 16]  =  ∑_{f < 64} (z + ∑_{e < 16} a[f,e]) · b[f]      (z = 0).
  The left side is the one long contraction over the flattened feature-embedding axis, the right side first sums the
  embedding coordinate and then contracts the features.  Multiplication on the extended reals distributes over a sum
  of NON-NEGATIVE terms whatever the multiplier is (infinite included), so no finiteness is needed; the rest is
  splitting an index below 1024 into its quotient and remainder by 16.
-/
import Idealize.ShloMosaic.PureOps.Ideal.Laws

noncomputable section

namespace Cert.SumLaw

open Finset

/-- A square is non-negative on the extended reals (the two infinities square to +∞). -/
theorem mul_self_nonneg (x : EReal) : 0 ≤ x * x := by
  induction x using EReal.rec with
  | bot => rw [EReal.bot_mul_bot]; exact le_top
  | coe r => rw [← EReal.coe_mul]; exact EReal.coe_nonneg.mpr (_root_.mul_self_nonneg r)
  | top => rw [EReal.top_mul_top]; exact le_top

/-- A finite sum of non-negative extended reals is non-negative. -/
theorem sum_nonneg' {ι : Type*} (s : Finset ι) (a : ι → EReal) (ha : ∀ i, 0 ≤ a i) : 0 ≤ ∑ i ∈ s, a i :=
  Finset.sum_nonneg fun i _ => ha i

/-- Multiplication by ANY extended real distributes over a finite sum of non-negative terms. -/
theorem sum_mul_of_nonneg {ι : Type*} [DecidableEq ι] (s : Finset ι) (a : ι → EReal) (ha : ∀ i, 0 ≤ a i) (b : EReal) :
    (∑ i ∈ s, a i) * b = ∑ i ∈ s, a i * b := by
  induction s using Finset.induction_on with
  | empty => simp
  | insert i s hi ih =>
    rw [Finset.sum_insert hi, Finset.sum_insert hi, EReal.right_distrib_of_nonneg (ha i) (sum_nonneg' s a ha), ih]

/-- An index below 1024 is a pair (quotient, remainder) by 16. -/
def split : Fin 1024 ≃ Fin 64 × Fin 16 where
  toFun j := (⟨j.val / 16, by have := j.isLt; omega⟩, ⟨j.val % 16, by omega⟩)
  invFun p := ⟨p.1.val * 16 + p.2.val, by have := p.1.isLt; have := p.2.isLt; omega⟩
  left_inv j := Fin.ext (by show j.val / 16 * 16 + j.val % 16 = j.val; omega)
  right_inv p := by
    have h1 := p.1.isLt
    have h2 := p.2.isLt
    refine Prod.ext (Fin.ext ?_) (Fin.ext ?_)
    · show (p.1.val * 16 + p.2.val) / 16 = p.1.val; omega
    · show (p.1.val * 16 + p.2.val) % 16 = p.2.val; omega

/-- The long contraction over 1024 is the double sum over (feature, embedding coordinate). -/
theorem sum_split (g : Fin 64 → Fin 16 → EReal) :
    ∑ j : Fin 1024, g (split j).1 (split j).2 = ∑ f : Fin 64, ∑ e : Fin 16, g f e := by
  rw [← Fintype.sum_prod_type']
  exact Fintype.sum_equiv split _ _ fun _ => rfl

/-- THE LAW. -/
theorem contract_flat (a : Fin 64 → Fin 16 → EReal) (b : Fin 64 → EReal) (ha : ∀ f e, 0 ≤ a f e) :
    ∑ j : Fin 1024, a (split j).1 (split j).2 * b (split j).1 = ∑ f : Fin 64, (0 + ∑ e : Fin 16, a f e) * b f := by
  rw [sum_split (fun f e => a f e * b f)]
  refine Finset.sum_congr rfl fun f _ => ?_
  rw [zero_add, sum_mul_of_nonneg Finset.univ (a f) (ha f) (b f)]

end Cert.SumLaw

end
-- ==== Proof.Staged.lean ====
/-
  What the kernel region finds in the two arrays it stages, as functions of the program's arguments.

  * The activations are the argument x : [32768, 64, 16] re-laid as [32768, 1024]: entry (r, j) is x[r, j / 16, j % 16].
  * The weight table is w : [10, 64] squared, transposed, repeated 16 times along the feature axis and padded with zero
    columns to [1024, 128]: for a column q < 10, entry (j, q) is w[q, j / 16]².  (Columns 10 … 127 are the padding; the
    program's result is cut back to the first 10 columns, so their contents are never looked at.)
  A change of float format is the identity on the extended reals, so the table's narrowing to the short format vanishes.
-/
import proofs.«165719_j541165879452_1_alg».proof.Proof.Gen.KernelIdeal.Frame
import proofs.«165719_j541165879452_1_alg».proof.Proof.SumLaw
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx Cert.SumLaw

/-- The activations as the region stages them: x re-laid as a matrix with one row per sample. -/
def xflat (x : FVec Ideal S32768x64x16 .f32) : FVec Ideal S32768x1024 .f32 :=
  shapeCast S32768x1024 x shapeCasts_S32768x64x16_S32768x1024

/-- The weight table as the region stages it. -/
def wtab (w : FVec Ideal S10x64 .f32) : FVec Ideal S1024x128 .bf16 :=
  truncf .bf16
    (pad S1024x128 ![0, 0] ![0, 118] ![0, 0]
      (shapeCast S1024x10
        (broadcastInDim S64x16x10 ![0, 2] bcast_S64x10_S64x16x10_0_2
          (transpose S64x10 [1, 0] (mulf w w) transposes_S10x64_S64x10_1_0))
        shapeCasts_S64x16x10_S1024x10)
      (sitofp .f32 (constantI S_ 32 0#32)) pads_S1024x10_S1024x128_000_01180 h_S_)
    bitsLt_bf16_f32

/-- Entry (r, j) of the re-laid activations is x[r, j / 16, j % 16]: the two row-major positions agree. -/
theorem xflat_apply (x : FVec Ideal S32768x64x16 .f32) (r : Fin 32768) (j : Fin 1024) :
    xflat x (ix2 r j) = x (ix3 r (split j).1 (split j).2) := by
  unfold xflat
  refine shapeCast_apply x _ (ix2 r j) (ix3 r (split j).1 (split j).2) ?_
  rw [Shape.rowMajor_val_three, Shape.rowMajor_val_two]
  show (r.val * 64 + j.val / 16) * 16 + j.val % 16 = r.val * 1024 + j.val
  omega

/-- Entry (j, q) of the weight table, for a column q below 10, is w[q, j / 16]². -/
theorem wtab_apply (w : FVec Ideal S10x64 .f32) (j : Fin 1024) (q : Fin 128) (hq : q.val < 10) :
    wtab w (ix2 j q) = w (ix2 ⟨q.val, hq⟩ (split j).1) * w (ix2 ⟨q.val, hq⟩ (split j).1) := by
  unfold wtab
  rw [truncf_apply]
  refine (pad_apply_of_inside _ _ _ _ _ _ _ (ix2 j q) (ix2 j (⟨q.val, hq⟩ : Fin 10)) (fun a => ?_)).trans ?_
  · match a with
    | ⟨0, _⟩ => show j.val = 0 + j.val * (0 + 1); omega
    | ⟨1, _⟩ => show q.val = 0 + q.val * (0 + 1); omega
  refine (shapeCast_apply _ _ (ix2 j (⟨q.val, hq⟩ : Fin 10)) (ix3 (split j).1 (split j).2 (⟨q.val, hq⟩ : Fin 10)) ?_).trans ?_
  · rw [Shape.rowMajor_val_three, Shape.rowMajor_val_two]
    show (j.val / 16 * 16 + j.val % 16) * 10 + q.val = j.val * 10 + q.val
    omega
  refine (broadcastInDim_apply _ _ _ (ix3 (split j).1 (split j).2 (⟨q.val, hq⟩ : Fin 10)) (ix2 (split j).1 (⟨q.val, hq⟩ : Fin 10)) (fun a => ?_)).trans ?_
  · match a with
    | ⟨0, _⟩ => rfl
    | ⟨1, _⟩ => rfl
  refine (transpose_apply _ _ _ (ix2 (split j).1 (⟨q.val, hq⟩ : Fin 10)) (ix2 (⟨q.val, hq⟩ : Fin 10) (split j).1) (fun b => ?_)).trans ?_
  · match b with
    | ⟨0, _⟩ => rfl
    | ⟨1, _⟩ => rfl
  rfl

variable (m : (ℓ : Loc nD τ sig) → Buf (Elt Ideal) ℓ)

/-- The first staged array is the re-laid argument x. -/
theorem V_main_v0 (c : Dev nD) : (V m c main_v0 : S32768x1024.Idx → EReal) = xflat (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

/-- The second staged array is the weight table of the argument w. -/
theorem V_main_v6 (c : Dev nD) : (V m c main_v6 : S1024x128.Idx → EReal) = wtab (m ((c : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results
  rfl

end Cert.KernelIdeal.Staged

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KernelValue.lean ====
/-
  The array the kernel region leaves behind, as one function of the two arrays it stages.

  At every grid point t the body loads rows 1024 t … 1024 t + 1023 of the activations A0 : [32768, 1024] and the whole
  weight table A1 : [1024, 128], squares the activations entry by entry and multiplies the two matrices into a zero
  accumulator.  So entry (a, q) of the block it writes back is  ∑_{l < 1024} A0[1024 t + a, l]² · A1[l, q],  which is block t of
      full A0 A1 (i, q) = ∑_{l < 1024} A0[i, l]² · A1[l, q].
  The 32 blocks tile the [32768, 128] result array (row i is in block i / 1024), so the array ends holding `full A0 A1`.
-/
import proofs.«165719_j541165879452_1_alg».proof.Proof.Staged
import proofs.«165719_j541165879452_1_alg».proof.Proof.LibMatmulPlain

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The body's product contracts the columns of its left operand with the rows of its right one, with no batch axis. -/
theorem dot_plain : Cert.Gcn.IsPlain dot_S1024x1024_S1024x128_S1024x128_1_0_0_1_n_n := ⟨rfl, rfl, rfl, rfl, rfl, rfl⟩

/-- The body's stored value at entry (a, q) of its block: the squared activations' row a against column q of the table. -/
theorem pay_apply (x0 : Vec Ideal S1024x1024 .f32) (x1 : Vec Ideal S1024x128 .bf16) (a : Fin 1024) (q : Fin 128) :
    k0_pay1 x0 x1 (ix2 a q) = ∑ l : Fin 1024, (x0 (ix2 a l) * x0 (ix2 a l)) * x1 (ix2 l q) := by
  unfold k0_pay1
  refine (Cert.Gcn.matmul_plain_apply dot_S1024x1024_S1024x128_S1024x128_1_0_0_1_n_n dot_plain none _ _ a q).trans ?_
  simp only [truncf_apply, mulf_apply, shapeCast_self]

/-- The same at any index of the block. -/
theorem pay_apply' (x0 : Vec Ideal S1024x1024 .f32) (x1 : Vec Ideal S1024x128 .bf16) (y : S1024x128.Idx) :
    k0_pay1 x0 x1 y = ∑ l : Fin 1024, (x0 (ix2 (y 0) l) * x0 (ix2 (y 0) l)) * x1 (ix2 l (y 1)) := by
  conv_lhs => rw [eq_ix2 y]
  exact pay_apply x0 x1 (y 0) (y 1)

/-- The whole result array as a function of the two staged arrays. -/
def full (A0 : FVec Ideal S32768x1024 .f32) (A1 : FVec Ideal S1024x128 .bf16) : FVec Ideal S32768x128 .f32 :=
  fun i => ∑ l : Fin 1024, (A0 (ix2 (i 0) l) * A0 (ix2 (i 0) l)) * A1 (ix2 l (i 1))

/-- The printed index maps over the 32 grid points: the activations' block moves down with the result's, one block of
    1024 rows per point; the table's block stays; no block moves along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (m : (ℓ : Loc nD τ sig) → Buf (Elt Ideal) ℓ)

/-- WHAT POINT t WRITES BACK is block t of `full` of the staged arrays. -/
theorem flushed_eq (c : Dev nD) (t : Fin cfg0.N) :
    (dats m 0 c).flushed 2 t = ((cfg0.win 2).blk t).view.read (Elt Ideal) (full (V m c main_v0) (V m c main_v6)) := by
  show (cfg0.win 2).cut (grid0.coords t) ((dats m 0 c).after 2 t) = _
  rw [after0_2]
  unfold out0_2
  rw [View.canon_unit_zero hz]
  simp only [View.ld_unit_zero (S := S1024x1024) hz, View.ld_unit_zero (S := S1024x128) hz]
  obtain ⟨e0, e1, e2, e3, e4, e5⟩ := idx_facts t
  funext y
  show k0_pay1 (iblk m c 0 t) (iblk m c 1 t) y = full (V m c main_v0) (V m c main_v6) (((cfg0.win 2).blk t).view.emb y)
  refine (pay_apply' (iblk m c 0 t) (iblk m c 1 t) y).trans ?_
  unfold full
  refine Finset.sum_congr rfl fun l _ => ?_
  have h0 : (iblk m c 0 t : Vec Ideal S1024x1024 .f32) (ix2 (y 0) l)
      = (V m c main_v0 : S32768x1024.Idx → EReal) (ix2 ((((cfg0.win 2).blk t).view.emb y) 0) l) := by
    show V m c main_v0 (((cfg0.win 0).blk t).view.emb (ix2 (y 0) l)) = _
    refine congrArg _ (funext fun a => Fin.ext ?_)
    match a with
    | ⟨0, _⟩ =>
      show win0_0.index t (0 : Fin 2) * 1024 + 1 * (y 0).val = win0_2.index t (0 : Fin 2) * 1024 + 1 * (y 0).val
      rw [e0]
    | ⟨1, _⟩ =>
      show win0_0.index t (1 : Fin 2) * 1024 + 1 * l.val = l.val
      rw [e1]; omega
  have h1 : (iblk m c 1 t : Vec Ideal S1024x128 .bf16) (ix2 l (y 1))
      = (V m c main_v6 : S1024x128.Idx → EReal) (ix2 l ((((cfg0.win 2).blk t).view.emb y) 1)) := by
    show V m c main_v6 (((cfg0.win 1).blk t).view.emb (ix2 l (y 1))) = _
    refine congrArg _ (funext fun a => Fin.ext ?_)
    match a with
    | ⟨0, _⟩ =>
      show win0_1.index t (0 : Fin 2) * 1024 + 1 * l.val = l.val
      rw [e2]; omega
    | ⟨1, _⟩ =>
      show win0_1.index t (1 : Fin 2) * 128 + 1 * (y 1).val = win0_2.index t (1 : Fin 2) * 128 + 1 * (y 1).val
      rw [e3, e5]
  rw [h0, h1]

/-- An index of the result array is in point t's block iff each coordinate is in the block's range on its axis. -/
theorem mem_blk (t : Fin cfg0.N) (i : S32768x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v7).slice (win0_2.rect t)).set ↔ _
  rw [View.set_slice_whole, Rect.mem_set_unit]
  exact Iff.rfl

/-- Every row i of the result array is written back by the point i / 1024. -/
theorem cover (i : S32768x128.Idx) : ∃ t : Fin cfg0.N, (cfg0.win 2).flush t = true ∧ i ∈ ((cfg0.win 2).blk t).view.set := by
  have hi0 : (i 0).val < 32768 := (i 0).isLt
  have hi1 : (i 1).val < 128 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 128 ≤ (i 1).val ∧ (i 1).val < win0_2.index t (1 : Fin 2) * 128 + 128
    rw [e5]; omega

/-- THE RESULT ARRAY after the region: `full` of the staged arrays. -/
theorem final (c : Dev nD) : (dats m 0 c).arrAt 2 cfg0.N = full (V m c main_v0) (V m c main_v6) :=
  (dats m 0 c).arrAt_eq_of_cover 2 (full (V m c main_v0) (V m c main_v6)) (fun t _ => flushed_eq m c t) cover

end Cert.KernelIdeal.KernelValue

end
-- ==== Proof.KernelRun.lean ====
/-
  The kernel program's run, read: its result is the first 10 columns of the array the region leaves,
      result x w = (full (xflat x) (wtab w)) [:, 0:10],
  a function of the two arguments alone; the arguments end unchanged.
-/
import proofs.«165719_j541165879452_1_alg».proof.Proof.KernelValue

noncomputable section

namespace Cert.KernelIdeal.KernelRun

open Cert.KernelIdeal Cert.KernelIdeal.Gen Idealize.ShloMosaic Idealize.ShloMosaic.TcCoe Idealize.SL.Sem
open Idealize.ShloMosaic.StableHlo Idealize.ShloMosaic.ValueIdx Cert.KernelIdeal.Staged Cert.KernelIdeal.KernelValue

/-- The program's result as a function of its arguments: the region's array cut back to its first 10 columns. -/
def result (x : FVec Ideal S32768x64x16 .f32) (w : FVec Ideal S10x64 .f32) : FVec Ideal S32768x10 .f32 :=
  extractStridedSlice S32768x10 ![0, 0] (full (xflat x) (wtab w)) slices_S32768x128_S32768x10_0_0

variable (m : (ℓ : Loc nD τ sig) → Buf (Elt Ideal) ℓ) (ρ : Dev nD → PrngReg)

/-- The one host operation after the region cuts the region's array; nothing else touches the result buffer. -/
theorem tail_eq (c : Dev nD) :
    Pipeline.afterTail₀ cfgs (dats m) 0 (V0 m) [hostOps1] c main_v8
      = result (m ((c : Thread nD τ).loc main_arg0)) (m ((c : Thread nD τ).loc main_arg1)) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = full (V m c main_v0) (V m c main_v6) :=
    (Pipeline.withArrays_arr spec0 launch0.win.arr_inj c _ _ 2).trans (final m c)
  refine (congrArg (fun X => extractStridedSlice S32768x10 ![0, 0] X slices_S32768x128_S32768x10_0_0) e).trans ?_
  unfold result
  rw [V_main_v0 m c, V_main_v6 m c]

/-- Every weakly fair execution of the kernel program ends with the result buffer at `result` of the arguments and the
    arguments as they were. -/
theorem run : θ_run defs (onTc (τ := τ) (main (F := Ideal))) ⟨m, fun _ => 0, ρ⟩ fun r => ∀ c : Dev nD,
      r.2.mem ((c : Thread nD τ).loc main_v8) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v8 (Pipeline.mem_restRefs_of main_v8 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelRun

end
-- ==== Proof.RefRead.lean ====
/-
  The reference's result read at one entry: for a row r and a column p it is the sum over the 64 features f of
  (0 + the sum over the 16 embedding coordinates e of x[r,f,e]²) times w[p,f]².
-/
import proofs.«165719_j541165879452_1_alg».proof.Proof.Gen.ReferenceIdeal.Run
import proofs.«165719_j541165879452_1_alg».proof.Proof.Gen.ReferenceIdeal.Read
import Idealize.ShloMosaic.Lib.ValueIdx
import Idealize.ShloMosaic.PureOps.Ideal.Laws

noncomputable section

namespace Cert.ReferenceIdeal.RefRead

open Cert.ReferenceIdeal Cert.ReferenceIdeal.Read Idealize.ShloMosaic Idealize.ShloMosaic.ValueIdx

/-- The row-sum stage reads x at (row, feature, e). -/
theorem idx_rowsum (r : Fin 32768) (p : Fin 10) (f : Fin 64) (e : Fin 16) :
    idx_main_v1 (lidx_main_v3 (ix2 r p) f) e = ix3 r f e :=
  funext fun a => Fin.ext (by match a with | ⟨0, _⟩ => rfl | ⟨1, _⟩ => rfl | ⟨2, _⟩ => rfl)

/-- The contraction reads the squared weights at (column, feature). -/
theorem idx_weight (r : Fin 32768) (p : Fin 10) (f : Fin 64) :
    ridx_main_v3 (ix2 r p) f = ix2 p f :=
  funext fun a => Fin.ext (by match a with | ⟨0, _⟩ => rfl | ⟨1, _⟩ => rfl)

/-- The reference at entry (r, p): first the embedding coordinate is summed (from the initial value 0), then the
    features are contracted against the squared weights. -/
theorem ref_apply (x : FVec Ideal S32768x64x16 .f32) (w : FVec Ideal S10x64 .f32) (r : Fin 32768) (p : Fin 10) :
    val_main_v3 (F := Ideal) x w (ix2 r p)
      = ∑ f : Fin 64, (0 + ∑ e : Fin 16, x (ix3 r f e) * x (ix3 r f e)) * (w (ix2 p f) * w (ix2 p f)) := by
  rw [val_main_v3_apply]
  refine Finset.sum_congr rfl fun f _ => ?_
  rw [val_main_v1_apply, val_main_v2_apply, idx_weight]
  simp only [val_main_v0_apply, val_main_cst_apply, idx_rowsum, Ideal.mulf_def, Ideal.ofBits_def, Ideal.ofBits_zero_f32]

end Cert.ReferenceIdeal.RefRead

end
-- ==== Proof.Bridge.lean ====
/-
  The two programs compute one function of the arguments.

  Entry (r, p) of the kernel program's result is  ∑_{l < 1024} x[r, l / 16, l % 16]² · w[p, l / 16]²  (the long contraction
  the matrix unit does over the flattened feature-embedding axis); entry (r, p) of the reference's is
  ∑_{f < 64} (0 + ∑_{e < 16} x[r, f, e]²) · w[p, f]².  They are equal because a product distributes over a sum of squares.
-/
import proofs.«165719_j541165879452_1_alg».proof.Proof.KernelRun
import proofs.«165719_j541165879452_1_alg».proof.Proof.RefRead

noncomputable section

namespace Cert.Bridge

open Idealize.ShloMosaic Idealize.ShloMosaic.ValueIdx Cert.SumLaw
open Cert.KernelIdeal.Staged Cert.KernelIdeal.KernelValue Cert.KernelIdeal.KernelRun

/-- The kernel program's result at entry (r, p), in the reference's arrangement. -/
theorem result_apply (x : FVec Ideal Cert.KernelIdeal.S32768x64x16 .f32) (w : FVec Ideal Cert.KernelIdeal.S10x64 .f32)
    (r : Fin 32768) (p : Fin 10) :
    result x w (ix2 r p)
      = ∑ f : Fin 64, (0 + ∑ e : Fin 16, x (ix3 r f e) * x (ix3 r f e)) * (w (ix2 p f) * w (ix2 p f)) := by
  unfold result
  have hp := p.isLt
  refine (slice2_axis1_apply 0 _ _ r p (⟨p.val, by omega⟩ : Fin 128) (by simp)).trans ?_
  unfold full
  show ∑ l : Fin 1024, (xflat x (ix2 r l) * xflat x (ix2 r l)) * wtab w (ix2 l (⟨p.val, by omega⟩ : Fin 128)) = _
  have hw : ∀ l : Fin 1024, wtab w (ix2 l (⟨p.val, by omega⟩ : Fin 128)) = w (ix2 p (split l).1) * w (ix2 p (split l).1) :=
    fun l => wtab_apply w l (⟨p.val, by omega⟩ : Fin 128) hp
  simp only [xflat_apply, hw]
  exact contract_flat (fun f e => x (ix3 r f e) * x (ix3 r f e)) (fun f => w (ix2 p f) * w (ix2 p f))
    (fun f e => Cert.SumLaw.mul_self_nonneg _)

/-- The kernel program's result IS the reference's, as functions of the arguments. -/
theorem result_eq_ref (x : FVec Ideal Cert.KernelIdeal.S32768x64x16 .f32) (w : FVec Ideal Cert.KernelIdeal.S10x64 .f32) :
    result x w = Cert.ReferenceIdeal.Read.val_main_v3 (F := Ideal) x w := by
  funext i
  obtain ⟨r, p, rfl⟩ : ∃ (r : Fin 32768) (p : Fin 10), i = ix2 r p := ⟨i 0, i 1, eq_ix2 i⟩
  rw [result_apply, Cert.ReferenceIdeal.RefRead.ref_apply]

end Cert.Bridge

end
-- ==== Proof.lean ====
/-
  The kernel computes, for each of 32768 samples r and 10 outputs p,
      lp[r, p] = ∑_{f < 64} ∑_{e < 16} x[r, f, e]² · w[p, f]²
  as ONE matrix product per block of 1024 samples: the activations re-laid as [32768, 1024] and squared, against the table
  T[16 f + e, p] = w[p, f]² (zero-padded to 128 columns, the padding cut off again after the call).  The reference first sums
  the embedding coordinate, s[r, f] = 0 + ∑_e x[r, f, e]², and then contracts the features, lp[r, p] = ∑_f s[r, f] · w[p, f]².
  On the extended reals the two are one function of the arguments: a change of float format is the identity there, a product
  into a zero accumulator and the host's contraction are both plain sums, and multiplication distributes over a sum of
  squares (non-negative terms), whatever the multiplier — so no finiteness of the inputs is used.

  The pieces: Proof/SumLaw.lean (the law), Proof/RefRead.lean (the reference at an entry), Proof/Staged.lean (the two arrays
  the region stages, as functions of the arguments), Proof/KernelValue.lean (the array the region leaves, from the blocks
  each grid point writes back), Proof/KernelRun.lean (the run of the whole kernel program with its result named),
  Proof/Bridge.lean (the two results are equal), and Proof/LibMatmulPlain.lean (a batch-free matrix product read at an entry).
  The three frames are the generated ones; the ideal pass rewrote nothing, so `preserves` is trivial.
-/
import proofs.«165719_j541165879452_1_alg».proof.Defs
import proofs.«165719_j541165879452_1_alg».proof.Proof.Gen.Kernel
import proofs.«165719_j541165879452_1_alg».proof.Proof.Gen.Kernel.Skeleton
import proofs.«165719_j541165879452_1_alg».proof.Proof.Gen.Kernel.Launch
import proofs.«165719_j541165879452_1_alg».proof.Proof.Gen.Kernel.Points
import proofs.«165719_j541165879452_1_alg».proof.Proof.Gen.Kernel.Frame
import proofs.«165719_j541165879452_1_alg».proof.Proof.Gen.KernelIdeal
import proofs.«165719_j541165879452_1_alg».proof.Proof.Gen.KernelIdeal.Skeleton
import proofs.«165719_j541165879452_1_alg».proof.Proof.Gen.KernelIdeal.Launch
import proofs.«165719_j541165879452_1_alg».proof.Proof.Gen.KernelIdeal.Points
import proofs.«165719_j541165879452_1_alg».proof.Proof.Gen.KernelIdeal.Frame
import proofs.«165719_j541165879452_1_alg».proof.Proof.Gen.ReferenceIdeal
import proofs.«165719_j541165879452_1_alg».proof.Proof.Gen.ReferenceIdeal.Run
import proofs.«165719_j541165879452_1_alg».proof.Proof.Gen.ReferenceIdeal.Read
import proofs.«165719_j541165879452_1_alg».proof.Proof.Gen.Pre_finite_inputs
import proofs.«165719_j541165879452_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- From memories that agree on x and w the two programs end with the same result: the kernel program's is
    `KernelRun.result x w`, the reference's the composed term of its five operations, and the two are one function. -/
theorem algebraic : Cert.algebraic_KernelIdeal_ReferenceIdeal := by
  intro m ρ m' ρ' _ hagree
  refine ⟨fun c => Cert.KernelIdeal.KernelRun.result
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v3_eq _ _).trans (Cert.Bridge.result_eq_ref _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
